-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 41
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1x128, .f32⟩
  | .hbm, ⟨40, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowMlp.lean ====
/-
  The function both programs compute, stated once, on a single feature row.

  A dense layer followed by the rectifier sends a row `r : Fin 128 → EReal` to
  `j ↦ max (∑ k, r k * w (k, j) + b j) 0`; the network is two such layers. Each output row depends on
  the input row with the same number and on nothing else, which is why cutting the rows of the feature
  matrix into blocks and treating the blocks one after the other gives the same array as treating all
  rows at once: `onRows` is the whole array, row by row.
-/
import Idealize.ShloMosaic.PureOps.Ideal
import Idealize.ShloMosaic.Lib.ValueIdx

noncomputable section

open scoped BigOperators

namespace Cert.RowMlp

open Idealize.ShloMosaic Idealize.ShloMosaic.ValueIdx

/-- A square weight matrix, indexed (input feature, output feature). -/
abbrev Weights : Type := (⟨2, ![128, 128]⟩ : Shape).Idx → EReal

/-- One dense layer and the rectifier on one row: `max (r · w[:, j] + b j) 0`. -/
def layer (r : Fin 128 → EReal) (w : Weights) (b : Fin 128 → EReal) : Fin 128 → EReal :=
  fun j => max ((∑ k : Fin 128, r k * w (ix2 k j)) + b j) 0

/-- The two layers, one after the other, on one row. -/
def mlp (r : Fin 128 → EReal) (w₁ : Weights) (b₁ : Fin 128 → EReal) (w₂ : Weights) (b₂ : Fin 128 → EReal) :
    Fin 128 → EReal :=
  layer (layer r w₁ b₁) w₂ b₂

/-- The network applied to every row of an array of `n` rows: entry `(i, j)` is the `j`-th output
    feature of row `i`. -/
def onRows {n : Nat} (h : (⟨2, ![n, 128]⟩ : Shape).Idx → EReal) (w₁ : Weights) (b₁ : Fin 128 → EReal)
    (w₂ : Weights) (b₂ : Fin 128 → EReal) : (⟨2, ![n, 128]⟩ : Shape).Idx → EReal :=
  fun i => mlp (fun k => h (ix2 (i 0) k)) w₁ b₁ w₂ b₂ (i 1)

/-- Read at explicit coordinates. -/
theorem onRows_ix2 {n : Nat} (h : (⟨2, ![n, 128]⟩ : Shape).Idx → EReal) (w₁ : Weights) (b₁ : Fin 128 → EReal)
    (w₂ : Weights) (b₂ : Fin 128 → EReal) (p : Fin n) (q : Fin 128) :
    onRows h w₁ b₁ w₂ b₂ (ix2 p q) = mlp (fun k => h (ix2 p k)) w₁ b₁ w₂ b₂ q := rfl

end Cert.RowMlp

end
-- ==== Proof.Body.lean ====
/-
  What the kernel body stores, read at one entry of its output block.

  The body loads a block of 5000 feature rows and the two weight matrices and bias rows whole, and stores
  `max (max (x · w₁ + b₁) 0 · w₂ + b₂) 0`. Over the extended reals the narrowing of a product's operands is the
  identity, a matrix product into a zero accumulator is the plain sum over the contracted axis, and a bias
  row broadcast down the block reads its own entry in every row; so entry `(p, q)` of the stored block is the
  `q`-th output feature of the two-layer network applied to row `p` of the loaded block.
-/
import proofs.«151318_j11622181503641_1_alg».proof.Proof.Gen.KernelIdeal.Skeleton
import proofs.«151318_j11622181503641_1_alg».proof.Proof.RowMlp
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The matrix product's operand indices -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block-sized product into a zero accumulator, at entry `(p, q)`: row `p` of the left operand against
    column `q` of the right one. -/
theorem product_apply {φ₁ φ₂ : FTy} (x : FVec Ideal S5000x128 φ₁) (w : FVec Ideal S128x128 φ₂) (p : Fin 5000) (q : Fin 128) :
    matmul (F := Ideal) dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A bias row broadcast down the block reads, in every row, its own entry of that column. -/
theorem bias_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => by
    match a with
    | ⟨0, _⟩ => show 0 = if (1 : Nat) = 1 then 0 else p.val; rw [if_pos rfl]
    | ⟨1, _⟩ => show q.val = if (128 : Nat) = 1 then 0 else q.val; rw [if_neg (by decide)])

/-- One layer of the body — product, bias, rectifier — at entry `(p, q)` is the row layer on row `p`. -/
theorem layer_apply {φ₁ φ₂ : FTy} (x : FVec Ideal S5000x128 φ₁) (w : FVec Ideal S128x128 φ₂) (b : FVec Ideal S1x128 .f32) (p : Fin 5000) (q : Fin 128) :
    maximumf (F := Ideal) (addf (matmul dot_S5000x128_S128x128_S5000x128_1_0_0_1_n_n none x w (constant S5000x128 .f32 0x00000000#32))
        (broadcastTo S5000x128 b broadcasts_S1x128_S5000x128)) (broadcast S5000x128 (Scalar.ofBits .f32 0x00000000#32)) (ix2 p q)
      = RowMlp.layer (fun k => x (ix2 p k)) w (fun k => b (ix2 (0 : Fin 1) k)) q := by
  show max (matmul (F := Ideal) dot_S5000x128_S128x128_S5000x128_1_0_0_1_n_n none x w (constant S5000x128 .f32 0x00000000#32) (ix2 p q)
      + broadcastTo S5000x128 b broadcasts_S1x128_S5000x128 (ix2 p q)) (Ideal.ofBits .f32 0x00000000#32) = _
  rw [product_apply, bias_apply, Ideal.ofBits_zero_f32]
  rfl

/-- THE BODY'S STORE at entry `(p, q)`: the two-layer network on row `p` of the loaded block, output feature `q`. -/
theorem payload_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k0_pay1 (F := Ideal) x0 x1 x2 x3 x4 (ix2 p q)
      = RowMlp.mlp (fun k => x0 (ix2 p k)) x1 (fun k => x2 (ix2 (0 : Fin 1) k)) x3 (fun k => x4 (ix2 (0 : Fin 1) k)) q := by
  unfold k0_pay1
  simp only [shapeCast_self]
  refine (layer_apply _ _ _ p q).trans ?_
  unfold RowMlp.mlp
  refine congrArg (fun r => RowMlp.layer r _ _ q) (funext fun k => ?_)
  exact layer_apply _ _ _ p k

end Cert.KernelIdeal.Body

end
-- ==== Proof.Blocks.lean ====
/-
  From the blocks to the whole array.

  The grid has ten points; point `t` fetches rows `5000 t … 5000 t + 4999` of the aggregated feature matrix,
  finds the two weight matrices and the two bias rows whole at every point, and writes back rows
  `5000 t … 5000 t + 4999` of the result. The network acts on each row by itself, so what point `t` writes back
  is exactly the block of rows `5000 t …` of the array "the network on every row of the feature matrix". The ten
  blocks of rows tile the 50000 rows, so that array is what the result buffer holds after the run.
-/
import proofs.«151318_j11622181503641_1_alg».proof.Proof.Gen.KernelIdeal.Value
import proofs.«151318_j11622181503641_1_alg».proof.Proof.Body

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every load and the store of the body start at the origin of their buffers. -/
theorem origin : (![0, 0] : Fin 2 → Nat) = fun _ => 0 := funext fun a => by fin_cases a <;> rfl

/-- The network on every row of the feature matrix the region finds in its first operand, with the weights
    and bias rows it finds in the other four. -/
def rowsResult (c : Dev nD) : S50000x128.Idx → EReal :=
  RowMlp.onRows (n := 50000) (V m c main_v20 : S50000x128.Idx → EReal) (V m c main_v21 : S128x128.Idx → EReal)
    (fun k => (V m c main_v23 : S1x128.Idx → EReal) (ix2 (0 : Fin 1) k)) (V m c main_v22 : S128x128.Idx → EReal)
    (fun k => (V m c main_v24 : S1x128.Idx → EReal) (ix2 (0 : Fin 1) k))

/-- The block indices over the grid: the feature window moves down the rows with the result window, the weights
    and bias rows stay at their one block, and the result window visits row blocks 0 to 9 of column block 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every block of rows is some point's. -/
theorem idx_onto : ∀ q : Fin 10, ∃ t : Fin cfg0.N, win0_5.index t = ![q.val, 0] :=
  (by decide +kernel : ∀ q : Fin 10, ∃ t : Fin grid0.N, win0_5.index t = ![q.val, 0])

/-- The first weight matrix is one block: every point finds it whole. -/
theorem weights1_whole (c : Dev nD) (t : Fin cfg0.N) : iblk m c 1 t = (V m c main_v21 : S128x128.Idx → EReal) := by
  obtain ⟨-, -, e0, e1, -⟩ := idx_facts t
  funext y
  show (V m c main_v21 : S128x128.Idx → EReal) (((cfg0.win 1).blk t).view.emb y) = (V m c main_v21 : S128x128.Idx → EReal) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- So is the second. -/
theorem weights2_whole (c : Dev nD) (t : Fin cfg0.N) : iblk m c 3 t = (V m c main_v22 : S128x128.Idx → EReal) := by
  obtain ⟨-, -, -, -, -, -, e0, e1, -⟩ := idx_facts t
  funext y
  show (V m c main_v22 : S128x128.Idx → EReal) (((cfg0.win 3).blk t).view.emb y) = (V m c main_v22 : S128x128.Idx → EReal) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The first bias row is one block. -/
theorem bias1_whole (c : Dev nD) (t : Fin cfg0.N) : iblk m c 2 t = (V m c main_v23 : S1x128.Idx → EReal) := by
  obtain ⟨-, -, -, -, e0, e1, -⟩ := idx_facts t
  funext y
  show (V m c main_v23 : S1x128.Idx → EReal) (((cfg0.win 2).blk t).view.emb y) = (V m c main_v23 : S1x128.Idx → EReal) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- So is the second. -/
theorem bias2_whole (c : Dev nD) (t : Fin cfg0.N) : iblk m c 4 t = (V m c main_v24 : S1x128.Idx → EReal) := by
  obtain ⟨-, -, -, -, -, -, -, -, e0, e1, -⟩ := idx_facts t
  funext y
  show (V m c main_v24 : S1x128.Idx → EReal) (((cfg0.win 4).blk t).view.emb y) = (V m c main_v24 : S1x128.Idx → EReal) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- One entry, on any data: if the fetched block holds, in the row of block entry `jb`, the row of the feature matrix
    `H` that array entry `i` lies in, and the two entries lie in the same column, then what the body stores at `jb`
    is the network on every row of `H`, read at `i`. -/
theorem entry_eq (X : Vec Ideal S5000x128 .f32) (H : S50000x128.Idx → EReal) (W1 W2 : Vec Ideal S128x128 .f32)
    (B1 B2 : Vec Ideal S1x128 .f32) (jb : S5000x128.Idx) (i : S50000x128.Idx)
    (hrow : ∀ k : Fin 128, X (ix2 (jb 0) k) = H (ix2 (i 0) k)) (hcol : jb 1 = i 1) :
    k0_pay1 (F := Ideal) X W1 B1 W2 B2 jb
      = RowMlp.onRows (n := 50000) H W1 (fun k => B1 (ix2 (0 : Fin 1) k)) W2 (fun k => B2 (ix2 (0 : Fin 1) k)) i := by
  obtain ⟨p, q, rfl⟩ : ∃ (p : Fin 5000) (q : Fin 128), jb = ix2 p q := ⟨jb 0, jb 1, eq_ix2 jb⟩
  refine (Body.payload_apply X W1 B1 W2 B2 p q).trans ?_
  unfold RowMlp.onRows
  rw [← hcol]
  exact congrArg (fun r => RowMlp.mlp r W1 _ W2 _ q) (funext hrow)

/-- What a write-back takes from a stored block, entry by entry. -/
theorem stored_apply (X : Vec Ideal S5000x128 .f32) (t : Fin cfg0.N) (j : ((cfg0.win 5).xblock (grid0.coords t)).Idx) :
    (cfg0.win 5).cut (grid0.coords t) X j = X ((cfg0.win 5).xinj (grid0.coords t) j) := rfl

/-- An array read through point `t`'s block of the result window, entry by entry. -/
theorem read_block (W : S50000x128.Idx → EReal) (t : Fin cfg0.N) (j : ((cfg0.win 5).xblock (grid0.coords t)).Idx) :
    ((cfg0.win 5).blk t).view.read (Elt Ideal) W j = W (((cfg0.win 5).blk t).view.emb j) := rfl

/-- The body's one store covers its whole buffer from the origin, so what it leaves there is what it stored. -/
theorem stored_is_payload (x0 : Vec Ideal S5000x128 .f32) (x1 : Vec Ideal S128x128 .f32) (x2 : Vec Ideal S1x128 .f32)
    (x3 : Vec Ideal S128x128 .f32) (x4 : Vec Ideal S1x128 .f32) :
    out0_5 (F := Ideal) x0 x1 x2 x3 x4 = k0_pay1 (F := Ideal) x0 x1 x2 x3 x4 := by
  unfold out0_5
  rw [View.canon_unit_zero origin]
  simp only [View.ld_unit_zero (S := S5000x128) origin, View.ld_unit_zero (S := S128x128) origin, View.ld_unit_zero (S := S1x128) origin]

/-- An array read through point `t`'s block of the feature window, entry by entry. -/
theorem fetched_rows (H : S50000x128.Idx → EReal) (t : Fin cfg0.N) (y : ((cfg0.win 0).xblock (grid0.coords t)).Idx) :
    ((cfg0.win 0).blk t).view.read (Elt Ideal) H y = H (((cfg0.win 0).blk t).view.emb y) := rfl

/-- WHAT POINT `t` WRITES BACK is its block of rows of `rowsResult`: entry `(p, q)` of the stored block is the
    network on row `p` of the fetched block, which is row `5000 t + p` of the feature matrix, and the entry of the
    result array under it is `(5000 t + p, q)`. -/
theorem flushed_eq (c : Dev nD) (t : Fin cfg0.N) :
    (dats m 0 c).flushed 5 t = ((cfg0.win 5).blk t).view.read (Elt Ideal) (rowsResult m c) := by
  rw [Value.flushed5, stored_is_payload, weights1_whole, weights2_whole, bias1_whole, bias2_whole]
  obtain ⟨e0, e1, -, -, -, -, -, -, -, -, -, e5⟩ := idx_facts t
  funext j
  rw [stored_apply, read_block]
  unfold rowsResult
  refine entry_eq (iblk m c 0 t) (V m c main_v20 : S50000x128.Idx → EReal) (V m c main_v21 : S128x128.Idx → EReal)
    (V m c main_v22 : S128x128.Idx → EReal) (V m c main_v23 : S1x128.Idx → EReal) (V m c main_v24 : S1x128.Idx → EReal)
    ((cfg0.win 5).xinj (grid0.coords t) j) (((cfg0.win 5).blk t).view.emb j) (fun k => ?_) ?_
  · have hblk : iblk m c 0 t = ((cfg0.win 0).blk t).view.read (Elt Ideal) (V m c main_v20 : S50000x128.Idx → EReal) := rfl
    rw [hblk, fetched_rows]
    generalize (V m c main_v20 : S50000x128.Idx → EReal) = H
    refine congrArg H (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · exact Fin.ext (show (j 1).val = win0_5.index t (1 : Fin 2) * 128 + 1 * (j 1).val by omega)

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- The ten blocks of 5000 rows tile the 50000 rows: row `r` lies in block `r / 5000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the run is the network on every row of the feature matrix. -/
theorem final (c : Dev nD) : (dats m 0 c).arrAt 5 cfg0.N = rowsResult m c :=
  (dats m 0 c).arrAt_eq_of_cover 5 (rowsResult m c) (fun t _ => flushed_eq m c t) covered

end Cert.KernelIdeal.Blocks

end
-- ==== Proof.Aggregate.lean ====
/-
  The neighbourhood aggregation, which both programs compute on the host in the same way.

  With `deg` the number of edges arriving at each node (a scatter-add of ones along the destination index) and
  `norm = (max 1 deg)^(-1/2)`, the aggregated feature matrix is
  `norm · scatter-add along dst of (norm · x) gathered along src`, the source index read with a negative entry
  wrapped around by the number of nodes. Both entry points spell it with the same operations in the same order,
  each over its own copy of the shape and dimension records; the records are equal field by field, so the two
  spellings are one function of the three arguments.
-/
import proofs.«151318_j11622181503641_1_alg».proof.Proof.Gen.KernelIdeal
import proofs.«151318_j11622181503641_1_alg».proof.Proof.Gen.ReferenceIdeal.Read

set_option maxRecDepth 8192

noncomputable section

namespace Cert.KernelIdeal.Aggregate

open Cert.KernelIdeal Cert.KernelIdeal.Gen Idealize.ShloMosaic

/-- The aggregated feature matrix in the kernel entry point's records. -/
def features (x0 : (⟨S50000x128, .f32⟩ : BufTy).Contents (Elt Ideal)) (x1 x2 : (⟨S800000, .i32⟩ : BufTy).Contents (Elt Ideal)) :
    FVec Ideal S50000x128 .f32 :=
  mulf (F := Ideal)
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (x2))
      (Host.gather gather_S50000x128_S800000x1_S800000x128_1_0_n_n_0_1_1128
        (mulf (x0) (broadcastInDim S50000x128 ![0, 1] bcast_S50000x1_S50000x128_0_1 (broadcastInDim S50000x1 ![0] bcast_S50000_S50000x1_0
          (Host.rsqrt (maximumf (broadcastInDim S50000 ![] bcast_S_S50000 (id (constant S_ .f32 0x3F800000#32)))
            (Host.scatterAdd scatter_S50000_S800000x1_S800000_n_0_0_1 (broadcastInDim S50000 ![] bcast_S_S50000 (constant S_ .f32 0x00000000#32))
              (broadcastInDim S800000x1 ![0] bcast_S800000_S800000x1_0 (x2)) (broadcastInDim S800000 ![] bcast_S_S800000 (constant S_ .f32 0x3F800000#32))))))))
        (broadcastInDim S800000x1 ![0] bcast_S800000_S800000x1_0
          (select (cmpi .slt (x1) (broadcastInDim S800000 ![] bcast_S_S800000 (constantI S_ 32 0#32)))
            (addi (x1) (broadcastInDim S800000 ![] bcast_S_S800000 (constantI S_ 32 50000#32))) (x1)))))
    (broadcastInDim S50000x128 ![0, 1] bcast_S50000x1_S50000x128_0_1 (broadcastInDim S50000x1 ![0] bcast_S50000_S50000x1_0
      (Host.rsqrt (maximumf (broadcastInDim S50000 ![] bcast_S_S50000 (id (constant S_ .f32 0x3F800000#32)))
        (Host.scatterAdd scatter_S50000_S800000x1_S800000_n_0_0_1 (broadcastInDim S50000 ![] bcast_S_S50000 (constant S_ .f32 0x00000000#32))
          (broadcastInDim S800000x1 ![0] bcast_S800000_S800000x1_0 (x2)) (broadcastInDim S800000 ![] bcast_S_S800000 (constant S_ .f32 0x3F800000#32)))))))

/-- The in-degrees: ones scatter-added along the destination index into zeros. -/
def degrees (x2 : (⟨S800000, .i32⟩ : BufTy).Contents (Elt Ideal)) : FVec Ideal S50000 .f32 :=
  Host.scatterAdd (F := Ideal) scatter_S50000_S800000x1_S800000_n_0_0_1 (broadcastInDim S50000 ![] bcast_S_S50000 (constant S_ .f32 0x00000000#32))
    (broadcastInDim S800000x1 ![0] bcast_S800000_S800000x1_0 (x2)) (broadcastInDim S800000 ![] bcast_S_S800000 (constant S_ .f32 0x3F800000#32))

/-- The degrees clipped below at one. -/
def clipped (one : FVec Ideal S_ .f32) (d : FVec Ideal S50000 .f32) : FVec Ideal S50000 .f32 :=
  maximumf (F := Ideal) (broadcastInDim S50000 ![] bcast_S_S50000 (id one)) d

/-- From the clipped degrees to the aggregated features: normalise, gather along the source index, scatter-add along
    the destination index, normalise again. -/
def fromClipped (x0 : (⟨S50000x128, .f32⟩ : BufTy).Contents (Elt Ideal)) (x1 x2 : (⟨S800000, .i32⟩ : BufTy).Contents (Elt Ideal))
    (cl : FVec Ideal S50000 .f32) : FVec Ideal S50000x128 .f32 :=
  mulf (F := Ideal)
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (x2))
      (Host.gather gather_S50000x128_S800000x1_S800000x128_1_0_n_n_0_1_1128
        (mulf (x0) (broadcastInDim S50000x128 ![0, 1] bcast_S50000x1_S50000x128_0_1 (broadcastInDim S50000x1 ![0] bcast_S50000_S50000x1_0
          (Host.rsqrt cl))))
        (broadcastInDim S800000x1 ![0] bcast_S800000_S800000x1_0
          (select (cmpi .slt (x1) (broadcastInDim S800000 ![] bcast_S_S800000 (constantI S_ 32 0#32)))
            (addi (x1) (broadcastInDim S800000 ![] bcast_S_S800000 (constantI S_ 32 50000#32))) (x1)))))
    (broadcastInDim S50000x128 ![0, 1] bcast_S50000x1_S50000x128_0_1 (broadcastInDim S50000x1 ![0] bcast_S50000_S50000x1_0
      (Host.rsqrt cl)))

/-- The aggregated features are these three steps composed. -/
theorem features_eq_steps (x0 : (⟨S50000x128, .f32⟩ : BufTy).Contents (Elt Ideal)) (x1 x2 : (⟨S800000, .i32⟩ : BufTy).Contents (Elt Ideal)) :
    features x0 x1 x2 = fromClipped x0 x1 x2 (clipped (constant S_ .f32 0x3F800000#32) (degrees x2)) := rfl

end Cert.KernelIdeal.Aggregate

namespace Cert.ReferenceIdeal.Aggregate

open Cert.ReferenceIdeal Cert.ReferenceIdeal.Gen Cert.ReferenceIdeal.Read Idealize.ShloMosaic

/-- The aggregated feature matrix in the reference's records. -/
def features (x0 : (⟨S50000x128, .f32⟩ : BufTy).Contents (Elt Ideal)) (x1 x2 : (⟨S800000, .i32⟩ : BufTy).Contents (Elt Ideal)) :
    FVec Ideal S50000x128 .f32 :=
  mulf (F := Ideal)
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (x2))
      (Host.gather gather_S50000x128_S800000x1_S800000x128_1_0_n_n_0_1_1128
        (mulf (x0) (broadcastInDim S50000x128 ![0, 1] bcast_S50000x1_S50000x128_0_1 (broadcastInDim S50000x1 ![0] bcast_S50000_S50000x1_0
          (Host.rsqrt (maximumf (broadcastInDim S50000 ![] bcast_S_S50000 (id (constant S_ .f32 0x3F800000#32)))
            (Host.scatterAdd scatter_S50000_S800000x1_S800000_n_0_0_1 (broadcastInDim S50000 ![] bcast_S_S50000 (constant S_ .f32 0x00000000#32))
              (broadcastInDim S800000x1 ![0] bcast_S800000_S800000x1_0 (x2)) (broadcastInDim S800000 ![] bcast_S_S800000 (constant S_ .f32 0x3F800000#32))))))))
        (broadcastInDim S800000x1 ![0] bcast_S800000_S800000x1_0
          (select (cmpi .slt (x1) (broadcastInDim S800000 ![] bcast_S_S800000 (constantI S_ 32 0#32)))
            (addi (x1) (broadcastInDim S800000 ![] bcast_S_S800000 (constantI S_ 32 50000#32))) (x1)))))
    (broadcastInDim S50000x128 ![0, 1] bcast_S50000x1_S50000x128_0_1 (broadcastInDim S50000x1 ![0] bcast_S50000_S50000x1_0
      (Host.rsqrt (maximumf (broadcastInDim S50000 ![] bcast_S_S50000 (id (constant S_ .f32 0x3F800000#32)))
        (Host.scatterAdd scatter_S50000_S800000x1_S800000_n_0_0_1 (broadcastInDim S50000 ![] bcast_S_S50000 (constant S_ .f32 0x00000000#32))
          (broadcastInDim S800000x1 ![0] bcast_S800000_S800000x1_0 (x2)) (broadcastInDim S800000 ![] bcast_S_S800000 (constant S_ .f32 0x3F800000#32)))))))

/-- It is the reference's stage that multiplies the scattered sum by the normalisation. -/
theorem features_eq_stage (x0 : (⟨S50000x128, .f32⟩ : BufTy).Contents (Elt Ideal)) (x1 x2 : (⟨S800000, .i32⟩ : BufTy).Contents (Elt Ideal)) :
    features x0 x1 x2 = val_main_v20 (F := Ideal) x0 x1 x2 := rfl

end Cert.ReferenceIdeal.Aggregate

namespace Cert.KernelIdeal.Aggregate

open Idealize.ShloMosaic

/-- The two spellings are one function: the records they are written over agree field by field. -/
theorem features_eq_reference (x0 : (⟨S50000x128, .f32⟩ : BufTy).Contents (Elt Ideal)) (x1 x2 : (⟨S800000, .i32⟩ : BufTy).Contents (Elt Ideal)) :
    features x0 x1 x2 = Cert.ReferenceIdeal.Aggregate.features x0 x1 x2 := rfl

end Cert.KernelIdeal.Aggregate

end
-- ==== Proof.Operands.lean ====
/-
  The five arrays the kernel region is launched on, as functions of the arguments.

  Before the region the kernel's entry point computes, on the host, the aggregated feature matrix (the in-degree
  normalisation, the gather along the source index, the scatter-add along the destination index, the second
  normalisation), the transposes of the two weight matrices, and the two biases reshaped to one row. The first three
  are, operation for operation, the reference's own first stages; a bias reshaped to a row reads, in its one row, the
  bias's own entry.
-/
import proofs.«151318_j11622181503641_1_alg».proof.Proof.Gen.KernelIdeal.Frame
import proofs.«151318_j11622181503641_1_alg».proof.Proof.Gen.ReferenceIdeal.Read
import proofs.«151318_j11622181503641_1_alg».proof.Proof.Aggregate
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first transposed weight matrix is the reference's. -/
theorem weights1_eq (c : Dev nD) : (V m c main_v21 : S128x128.Idx → EReal)
    = Cert.ReferenceIdeal.Read.val_main_v21 (F := Ideal) (m ((c : Thread nD τ).loc main_arg3)) := by
  dsimp only [V]
  simp only [hostOps0, hostOps0_1, hostOps0_2, List.flatten_cons, List.flatten_nil, List.append_nil, List.cons_append, List.nil_append]
  after_results_simp
  rfl

/-- The second transposed weight matrix is the reference's. -/
theorem weights2_eq (c : Dev nD) : (V m c main_v22 : S128x128.Idx → EReal)
    = Cert.ReferenceIdeal.Read.val_main_v28 (F := Ideal) (m ((c : Thread nD τ).loc main_arg5)) := by
  dsimp only [V]
  simp only [hostOps0, hostOps0_1, hostOps0_2, List.flatten_cons, List.flatten_nil, List.append_nil, List.cons_append, List.nil_append]
  after_results_simp
  rfl

/-- The first bias, reshaped to one row, reads its own entries. -/
theorem bias1_apply (c : Dev nD) (k : Fin 128) : (V m c main_v23 : S1x128.Idx → EReal) (ix2 (0 : Fin 1) k)
    = (m ((c : Thread nD τ).loc main_arg4) : S128.Idx → EReal) (ix1 k) := by
  have e : (V m c main_v23 : S1x128.Idx → EReal)
      = shapeCast S1x128 (m ((c : Thread nD τ).loc main_arg4) : S128.Idx → EReal) shapeCasts_S128_S1x128 := by
    dsimp only [V]
    simp only [hostOps0, hostOps0_1, hostOps0_2, List.flatten_cons, List.flatten_nil, List.append_nil, List.cons_append, List.nil_append]
    after_results_simp
    rfl
  rw [e]
  exact shapeCast_apply _ shapeCasts_S128_S1x128 (ix2 (0 : Fin 1) k) (ix1 k) (by
    rw [Shape.rowMajor_val_one, Shape.rowMajor_val_two]; show k.val = 0 * 128 + k.val; omega)

/-- The second bias likewise. -/
theorem bias2_apply (c : Dev nD) (k : Fin 128) : (V m c main_v24 : S1x128.Idx → EReal) (ix2 (0 : Fin 1) k)
    = (m ((c : Thread nD τ).loc main_arg6) : S128.Idx → EReal) (ix1 k) := by
  have e : (V m c main_v24 : S1x128.Idx → EReal)
      = shapeCast S1x128 (m ((c : Thread nD τ).loc main_arg6) : S128.Idx → EReal) shapeCasts_S128_S1x128 := by
    dsimp only [V]
    simp only [hostOps0, hostOps0_1, hostOps0_2, List.flatten_cons, List.flatten_nil, List.append_nil, List.cons_append, List.nil_append]
    after_results_simp
    rfl
  rw [e]
  exact shapeCast_apply _ shapeCasts_S128_S1x128 (ix2 (0 : Fin 1) k) (ix1 k) (by
    rw [Shape.rowMajor_val_one, Shape.rowMajor_val_two]; show k.val = 0 * 128 + k.val; omega)

/-! ## The aggregated feature matrix, one stretch of host operations at a time

    Before the region the entry point runs three stretches of host operations: the in-degree count, the clipping of
    the degrees (a function of its own, whose values pass through typed references: the transport of a value along
    "this buffer has this type" is the identity), and the rest of the aggregation with the transposes and reshapes.
    Each stretch is read from ANY contents of the buffers before it, and the three readings are chained. -/

/-- Running a line of operations after another. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op ops ih => exact ih _

/-- The first stretch leaves the in-degrees, -/
theorem first_degrees (W : Valuation τ sig (Elt Ideal)) :
    StableHlo.after hostOps0 W (Proc.devRef .tc main_v3) = Aggregate.degrees (W (Proc.devRef .tc main_arg2)) := by
  dsimp only [hostOps0]
  after_results_simp
  rfl
/-- the constant one the clipping is called with, -/
theorem first_one (W : Valuation τ sig (Elt Ideal)) :
    StableHlo.after hostOps0 W (Proc.devRef .tc main_cst_1) = constant (F := Ideal) S_ .f32 0x3F800000#32 := by
  dsimp only [hostOps0]
  after_results_simp
/-- and the three arguments as they were. -/
theorem first_arg0 (W : Valuation τ sig (Elt Ideal)) :
    StableHlo.after hostOps0 W (Proc.devRef .tc main_arg0) = W (Proc.devRef .tc main_arg0) := by
  dsimp only [hostOps0]
  after_results_simp
theorem first_arg1 (W : Valuation τ sig (Elt Ideal)) :
    StableHlo.after hostOps0 W (Proc.devRef .tc main_arg1) = W (Proc.devRef .tc main_arg1) := by
  dsimp only [hostOps0]
  after_results_simp
theorem first_arg2 (W : Valuation τ sig (Elt Ideal)) :
    StableHlo.after hostOps0 W (Proc.devRef .tc main_arg2) = W (Proc.devRef .tc main_arg2) := by
  dsimp only [hostOps0]
  after_results_simp

/-- The second stretch clips the degrees below at the constant, -/
theorem second_clipped (W : Valuation τ sig (Elt Ideal)) :
    StableHlo.after hostOps0_1 W (Proc.devRef .tc main_v4)
      = Aggregate.clipped (W (Proc.devRef .tc main_cst_1)) (W (Proc.devRef .tc main_v3)) := by
  dsimp only [hostOps0_1]
  after_results_simp
  rfl
/-- and leaves the three arguments as they were. -/
theorem second_arg0 (W : Valuation τ sig (Elt Ideal)) :
    StableHlo.after hostOps0_1 W (Proc.devRef .tc main_arg0) = W (Proc.devRef .tc main_arg0) := by
  dsimp only [hostOps0_1]
  after_results_simp
theorem second_arg1 (W : Valuation τ sig (Elt Ideal)) :
    StableHlo.after hostOps0_1 W (Proc.devRef .tc main_arg1) = W (Proc.devRef .tc main_arg1) := by
  dsimp only [hostOps0_1]
  after_results_simp
theorem second_arg2 (W : Valuation τ sig (Elt Ideal)) :
    StableHlo.after hostOps0_1 W (Proc.devRef .tc main_arg2) = W (Proc.devRef .tc main_arg2) := by
  dsimp only [hostOps0_1]
  after_results_simp

/-- The third stretch takes the clipped degrees and the arguments to the aggregated features. -/
theorem third_features (W : Valuation τ sig (Elt Ideal)) :
    StableHlo.after hostOps0_2 W (Proc.devRef .tc main_v20)
      = Aggregate.fromClipped (W (Proc.devRef .tc main_arg0)) (W (Proc.devRef .tc main_arg1)) (W (Proc.devRef .tc main_arg2))
          (W (Proc.devRef .tc main_v4)) := by
  dsimp only [hostOps0_2]
  after_results_simp
  rfl

/-- THE AGGREGATED FEATURE MATRIX the region is launched on: the three stretches, chained. -/
theorem features_eq (c : Dev nD) : (V m c main_v20 : S50000x128.Idx → EReal)
    = Aggregate.features (m ((c : Thread nD τ).loc main_arg0)) (m ((c : Thread nD τ).loc main_arg1)) (m ((c : Thread nD τ).loc main_arg2)) := by
  dsimp only [V]
  simp only [List.flatten_cons, List.flatten_nil, List.append_nil]
  rw [after_append, after_append, third_features, second_clipped, second_arg0, second_arg1, second_arg2, first_degrees, first_one,
    first_arg0, first_arg1, first_arg2, Aggregate.features_eq_steps]

/-- It is the reference's aggregated feature matrix of the same arguments. -/
theorem features_eq_reference (c : Dev nD) : (V m c main_v20 : S50000x128.Idx → EReal)
    = Cert.ReferenceIdeal.Read.val_main_v20 (F := Ideal) (m ((c : Thread nD τ).loc main_arg0))
        (m ((c : Thread nD τ).loc main_arg1)) (m ((c : Thread nD τ).loc main_arg2)) :=
  (features_eq m c).trans ((Aggregate.features_eq_reference _ _ _).trans (Cert.ReferenceIdeal.Aggregate.features_eq_stage _ _ _))

end Cert.KernelIdeal.Operands

end
-- ==== Proof.RefRows.lean ====
/-
  The reference, row by row.

  After the aggregation the reference multiplies the feature matrix by the transposed first weight matrix, adds
  the first bias along the rows, takes the maximum with zero, and does the same again with the second weight
  matrix and bias. Read at entry `(p, q)`, each product is the sum over the contracted feature of row `p` of the
  left operand against column `q` of the right one, and a bias broadcast over the rows reads its entry `q`; so
  the result is the two-layer network on every row of the aggregated feature matrix.
-/
import proofs.«151318_j11622181503641_1_alg».proof.Proof.Gen.ReferenceIdeal.Read
import proofs.«151318_j11622181503641_1_alg».proof.Proof.RowMlp

noncomputable section

open scoped BigOperators

namespace Cert.ReferenceIdeal.RefRows

open Cert.ReferenceIdeal Cert.ReferenceIdeal.Read Idealize.ShloMosaic Idealize.ShloMosaic.ValueIdx

/-! ## Where each stage reads its operands, by coordinates -/

theorem left1 (p : Fin 50000) (q k : Fin 128) : lidx_main_v22 (ix2 p q) k = ix2 p k :=
  funext fun a => Fin.ext (by match a with | ⟨0, _⟩ => rfl | ⟨1, _⟩ => rfl)
theorem right1 (p : Fin 50000) (q k : Fin 128) : ridx_main_v22 (ix2 p q) k = ix2 k q :=
  funext fun a => Fin.ext (by match a with | ⟨0, _⟩ => rfl | ⟨1, _⟩ => rfl)
theorem left2 (p : Fin 50000) (q k : Fin 128) : lidx_main_v29 (ix2 p q) k = ix2 p k :=
  funext fun a => Fin.ext (by match a with | ⟨0, _⟩ => rfl | ⟨1, _⟩ => rfl)
theorem right2 (p : Fin 50000) (q k : Fin 128) : ridx_main_v29 (ix2 p q) k = ix2 k q :=
  funext fun a => Fin.ext (by match a with | ⟨0, _⟩ => rfl | ⟨1, _⟩ => rfl)
theorem biasRow1 (p : Fin 50000) (q : Fin 128) : idx_main_v23 (idx_main_v24 (ix2 p q)) = ix1 q :=
  funext fun a => Fin.ext (by match a with | ⟨0, _⟩ => rfl)
theorem biasRow2 (p : Fin 50000) (q : Fin 128) : idx_main_v30 (idx_main_v31 (ix2 p q)) = ix1 q :=
  funext fun a => Fin.ext (by match a with | ⟨0, _⟩ => rfl)

/-- The hidden activations at entry `(p, k)`: the first layer on row `p` of the aggregated features. -/
theorem hidden_apply (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) (p : Fin 50000) (k : Fin 128) :
    val_main_v27 (F := Ideal) x0 x1 x2 x3 x4 (ix2 p k)
      = RowMlp.layer (fun l => val_main_v20 (F := Ideal) x0 x1 x2 (ix2 p l)) (val_main_v21 (F := Ideal) x3) (fun l => x4 (ix1 l)) k := by
  rw [val_main_v27_apply, val_main_v25_apply, val_main_v22_apply, val_main_v24_apply, val_main_v23_apply, val_main_v26_apply,
    val_main_cst_4_apply, biasRow1]
  simp only [left1, right1, Ideal.ofBits_def, Ideal.ofBits_zero_f32]
  rfl

/-- THE REFERENCE'S RESULT is the network on every row of its aggregated feature matrix, with the transposed
    weight matrices as it computes them and the biases as given. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v34 (F := Ideal) x0 x1 x2 x3 x4 x5 x6
      = RowMlp.onRows (n := 50000) (val_main_v20 (F := Ideal) x0 x1 x2) (val_main_v21 (F := Ideal) x3) (fun l => x4 (ix1 l))
          (val_main_v28 (F := Ideal) x5) (fun l => x6 (ix1 l)) := by
  funext i
  obtain ⟨p, q, rfl⟩ : ∃ (p : Fin 50000) (q : Fin 128), i = ix2 p q := ⟨i 0, i 1, eq_ix2 i⟩
  rw [val_main_v34_apply, val_main_v32_apply, val_main_v29_apply, val_main_v31_apply, val_main_v30_apply, val_main_v33_apply,
    val_main_cst_5_apply, biasRow2]
  simp only [left2, right2, hidden_apply, Ideal.ofBits_def, Ideal.ofBits_zero_f32]
  rfl

end Cert.ReferenceIdeal.RefRows

end
-- ==== Proof.lean ====
/-
  A one-hop graph convolution followed by a linear layer, each with a rectifier: the kernel entry point against
  its reference, over the extended reals.

  Both programs first aggregate the node features over the edges on the host, in the same way (Proof/Aggregate.lean).
  The reference then applies the two dense layers to the whole aggregated matrix with two host matrix products. The
  kernel entry point hands the aggregated matrix, the transposed weights and the biases to a kernel region that walks
  the 50000 rows in ten blocks of 5000 and applies both layers to each block on chip. The two layers act on every row
  by itself (Proof/RowMlp.lean), so the blocks of results are the blocks of the reference's result
  (Proof/Body.lean: one stored entry; Proof/Blocks.lean: the blocks tile the array; Proof/Operands.lean: what the region is
  launched on; Proof/RefRows.lean: the reference read row by row). Over the extended reals a product into a zero
  accumulator and a host product are the same finite sum, and narrowing an operand is the identity, so no finiteness
  of the inputs is used. The idealized kernel is the kernel's own text read over the extended reals (no operation was
  rewritten), so the preservation claim is the trivial one.
-/
import proofs.«151318_j11622181503641_1_alg».proof.Defs
import proofs.«151318_j11622181503641_1_alg».proof.Proof.Gen.Kernel
import proofs.«151318_j11622181503641_1_alg».proof.Proof.Gen.Kernel.Skeleton
import proofs.«151318_j11622181503641_1_alg».proof.Proof.Gen.Kernel.Launch
import proofs.«151318_j11622181503641_1_alg».proof.Proof.Gen.Kernel.Points
import proofs.«151318_j11622181503641_1_alg».proof.Proof.Gen.Kernel.Frame
import proofs.«151318_j11622181503641_1_alg».proof.Proof.Gen.KernelIdeal
import proofs.«151318_j11622181503641_1_alg».proof.Proof.Gen.KernelIdeal.Skeleton
import proofs.«151318_j11622181503641_1_alg».proof.Proof.Gen.KernelIdeal.Launch
import proofs.«151318_j11622181503641_1_alg».proof.Proof.Gen.KernelIdeal.Points
import proofs.«151318_j11622181503641_1_alg».proof.Proof.Gen.KernelIdeal.Frame
import proofs.«151318_j11622181503641_1_alg».proof.Proof.Gen.ReferenceIdeal
import proofs.«151318_j11622181503641_1_alg».proof.Proof.Gen.Pre_finite_inputs
import proofs.«151318_j11622181503641_1_alg».proof.Proof.Gen.KernelIdeal.Value
import proofs.«151318_j11622181503641_1_alg».proof.Proof.Gen.ReferenceIdeal.Run
import proofs.«151318_j11622181503641_1_alg».proof.Proof.Gen.ReferenceIdeal.Read
import proofs.«151318_j11622181503641_1_alg».proof.Proof.Blocks
import proofs.«151318_j11622181503641_1_alg».proof.Proof.Operands
import proofs.«151318_j11622181503641_1_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

/-- The common result, as a function of the kernel entry point's arguments: the two layers on every row of the
    aggregated features, with the transposed weights and the biases. -/
def result (m : (ℓ : Loc Cert.KernelIdeal.nD Cert.KernelIdeal.τ Cert.KernelIdeal.sig) → Buf (Elt Ideal) ℓ) (c : Dev Cert.KernelIdeal.nD) :
    Cert.KernelIdeal.S50000x128.Idx → EReal :=
  RowMlp.onRows (n := 50000)
    (Cert.ReferenceIdeal.Read.val_main_v20 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)))
    (Cert.ReferenceIdeal.Read.val_main_v21 (F := Ideal) (m ((c : Thread Cert.KernelIdeal.nD Cert.KernelIdeal.τ).loc Cert.KernelIdeal.main_arg3)))
    (fun k => (m ((c : Thread Cert.KernelIdeal.nD Cert.KernelIdeal.τ).loc Cert.KernelIdeal.main_arg4) : Cert.KernelIdeal.S128.Idx → EReal) (ix1 k))
    (Cert.ReferenceIdeal.Read.val_main_v28 (F := Ideal) (m ((c : Thread Cert.KernelIdeal.nD Cert.KernelIdeal.τ).loc Cert.KernelIdeal.main_arg5)))
    (fun k => (m ((c : Thread Cert.KernelIdeal.nD Cert.KernelIdeal.τ).loc Cert.KernelIdeal.main_arg6) : Cert.KernelIdeal.S128.Idx → EReal) (ix1 k))

/-- What the kernel region leaves in the result array, with the five arrays it is launched on read back as
    functions of the arguments. -/
theorem kernel_result (m : (ℓ : Loc Cert.KernelIdeal.nD Cert.KernelIdeal.τ Cert.KernelIdeal.sig) → Buf (Elt Ideal) ℓ) (c : Dev Cert.KernelIdeal.nD) :
    Cert.KernelIdeal.Blocks.rowsResult m c = result m c := by
  unfold Cert.KernelIdeal.Blocks.rowsResult result
  rw [Cert.KernelIdeal.Operands.features_eq_reference, Cert.KernelIdeal.Operands.weights1_eq, Cert.KernelIdeal.Operands.weights2_eq]
  rw [show (fun k : Fin 128 => (Cert.KernelIdeal.Gen.V m c Cert.KernelIdeal.main_v23 : Cert.KernelIdeal.S1x128.Idx → EReal) (ix2 (0 : Fin 1) k))
      = fun k => (m ((c : Thread Cert.KernelIdeal.nD Cert.KernelIdeal.τ).loc Cert.KernelIdeal.main_arg4) : Cert.KernelIdeal.S128.Idx → EReal) (ix1 k)
      from funext (Cert.KernelIdeal.Operands.bias1_apply m c),
    show (fun k : Fin 128 => (Cert.KernelIdeal.Gen.V m c Cert.KernelIdeal.main_v24 : Cert.KernelIdeal.S1x128.Idx → EReal) (ix2 (0 : Fin 1) k))
      = fun k => (m ((c : Thread Cert.KernelIdeal.nD Cert.KernelIdeal.τ).loc Cert.KernelIdeal.main_arg6) : Cert.KernelIdeal.S128.Idx → EReal) (ix1 k)
      from funext (Cert.KernelIdeal.Operands.bias2_apply m c)]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with `result` of the (agreeing) arguments: the kernel's by the blocks, the reference's row by row. -/
theorem algebraic : Cert.algebraic_KernelIdeal_ReferenceIdeal := by
  intro m ρ m' ρ' _ hagree
  refine ⟨fun c => result m c, ?_, ?_⟩
  · exact (θ_run Cert.KernelIdeal.defs _ _).mono
      (fun r h c => ⟨(h c).1.trans ((Cert.KernelIdeal.Blocks.final m c).trans (kernel_result m c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v34_eq, Cert.ReferenceIdeal.RefRows.result_eq, h0, h1, h2, h3, h4, h5, h6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
